-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S32x2048 : Shape := ⟨2, ![32, 2048]⟩
abbrev S2048x512 : Shape := ⟨2, ![2048, 512]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S32x2048x512 .f32) (main_arg1 : IVec S32x2048 1) (main_arg2 : FVec F S2048x512 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S2048x512 .f32 := Host.absf main_arg2
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S32x2048x512 : Shape := ⟨3, ![32, 2048, 512]⟩
abbrev S32x2048 : Shape := ⟨2, ![32, 2048]⟩
abbrev S2048x512 : Shape := ⟨2, ![2048, 512]⟩
abbrev S_ : Shape := ⟨0, ![]⟩
abbrev S32x2048x1 : Shape := ⟨3, ![32, 2048, 1]⟩
abbrev S1x512x512 : Shape := ⟨3, ![1, 512, 512]⟩
abbrev S1x512x1 : Shape := ⟨3, ![1, 512, 1]⟩
abbrev S512x1 : Shape := ⟨2, ![512, 1]⟩
abbrev S512x2048 : Shape := ⟨2, ![512, 2048]⟩
abbrev S512x512 : Shape := ⟨2, ![512, 512]⟩

abbrev nBuf : Space → Nat
  | .hbm => 23
  | .vmem => 9
  | .smem => 0
  | _ => 0

abbrev bufTy : (tb : Table) → Fin (tcTables nBuf tb) → BufTy
  | .hbm, ⟨0, _⟩ => ⟨S32x2048x512, .f32⟩
  | .hbm, ⟨1, _⟩ => ⟨S32x2048, .i1⟩
  | .hbm, ⟨2, _⟩ => ⟨S2048x512, .f32⟩
  | .hbm, ⟨3, _⟩ => ⟨S32x2048, .i32⟩
  | .hbm, ⟨4, _⟩ => ⟨S_, .i32⟩
  | .hbm, ⟨5, _⟩ => ⟨S_, .i32⟩
  | .hbm, ⟨6, _⟩ => ⟨S32x2048, .i32⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S32x2048, .i32⟩
  | .hbm, ⟨14, _⟩ => ⟨S32x2048, .i32⟩
  | .hbm, ⟨15, _⟩ => ⟨S_, .i32⟩
  | .hbm, ⟨16, _⟩ => ⟨S32x2048, .i32⟩
  | .hbm, ⟨17, _⟩ => ⟨S32x2048, .i32⟩
  | .hbm, ⟨18, _⟩ => ⟨S32x2048x1, .i32⟩
  | .hbm, ⟨19, _⟩ => ⟨S32x2048, .f32⟩
  | .hbm, ⟨20, _⟩ => ⟨S32x2048x1, .f32⟩
  | .hbm, ⟨21, _⟩ => ⟨S2048x512, .bf16⟩
  | .hbm, ⟨22, _⟩ => ⟨S32x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x512x1, .f32⟩
  | .local _ .vmem, ⟨3, _⟩ => ⟨S1x512x1, .f32⟩
  | .local _ .vmem, ⟨4, _⟩ => ⟨S1x512x1, .i32⟩
  | .local _ .vmem, ⟨5, _⟩ => ⟨S1x512x1, .i32⟩
  | .local _ .vmem, ⟨6, _⟩ => ⟨S2048x512, .bf16⟩
  | .local _ .vmem, ⟨7, _⟩ => ⟨S1x512x512, .f32⟩
  | .local _ .vmem, ⟨8, _⟩ => ⟨S1x512x512, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_c : Ref sig .tc := ⟨.hbm, 4, rfl⟩
abbrev main_call0_call0_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_c_1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  natLt_1_32 : 1 < 32
  bcast_S_S_ : S_.BroadcastsInDim S_ (![] : Fin 0 → Fin S_.rank)
  reduceWindows_S32x2048_S32x2048_w1s1p0_0_w2048s1p2047_0 : S32x2048.ReduceWindows (![1, 2048] : Fin 2 → Nat) ![1, 1] ![0, 2047] ![0, 0] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bitsLt_bf16_f32 : FTy.bits .bf16 < FTy.bits .f32
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  iota_S512x2048_d1_w32 : S512x2048.Iotas .tc 32 [1]
  broadcasts_S512x1_S512x2048 : S512x1.Broadcasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  broadcasts_S512x1_S512x512 : S512x1.Broadcasts S512x512
  shapeCasts_S512x512_S1x512x512 : S512x512.ShapeCasts S1x512x512
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x2048x512.size a
  hwx0_0 : ∀ i : grid0.Coords, EltTy.bits .f32 = 32 ∨ (Rect.block (s := S32x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S32x2048x1.size a
  hwx0_1 : ∀ i : grid0.Coords, EltTy.bits .f32 = 32 ∨ (Rect.block (s := S32x2048x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S32x2048x1.size a
  hwx0_2 : ∀ i : grid0.Coords, EltTy.bits .i32 = 32 ∨ (Rect.block (s := S32x2048x1) S1x512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S32x2048x512.size a
  hwx0_4 : ∀ i : grid0.Coords, EltTy.bits .f32 = 32 ∨ (Rect.block (s := S32x2048x512) S1x512x512.size (cc0_transform_4 i) (hinb0_4 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S32x2048 : Shape := ⟨2, ![32, 2048]⟩
abbrev S2048x512 : Shape := ⟨2, ![2048, 512]⟩
abbrev S_ : Shape := ⟨0, ![]⟩
abbrev S32x2048x1 : Shape := ⟨3, ![32, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048, .i1⟩
  | .hbm, ⟨2, _⟩ => ⟨S2048x512, .f32⟩
  | .hbm, ⟨3, _⟩ => ⟨S32x2048, .i32⟩
  | .hbm, ⟨4, _⟩ => ⟨S_, .i32⟩
  | .hbm, ⟨5, _⟩ => ⟨S_, .i32⟩
  | .hbm, ⟨6, _⟩ => ⟨S32x2048, .i32⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S32x2048, .i32⟩
  | .hbm, ⟨14, _⟩ => ⟨S32x2048, .i32⟩
  | .hbm, ⟨15, _⟩ => ⟨S_, .i32⟩
  | .hbm, ⟨16, _⟩ => ⟨S32x2048, .i32⟩
  | .hbm, ⟨17, _⟩ => ⟨S32x2048, .i32⟩
  | .hbm, ⟨18, _⟩ => ⟨S_, .i32⟩
  | .hbm, ⟨19, _⟩ => ⟨S32x2048, .i32⟩
  | .hbm, ⟨20, _⟩ => ⟨S32x2048, .i1⟩
  | .hbm, ⟨21, _⟩ => ⟨S_, .i32⟩
  | .hbm, ⟨22, _⟩ => ⟨S32x2048, .i32⟩
  | .hbm, ⟨23, _⟩ => ⟨S32x2048, .i32⟩
  | .hbm, ⟨24, _⟩ => ⟨S32x2048, .i32⟩
  | .hbm, ⟨25, _⟩ => ⟨S32x2048x1, .i32⟩
  | .hbm, ⟨26, _⟩ => ⟨S32x2048x512, .f32⟩
  | .hbm, ⟨27, _⟩ => ⟨S32x2048x1, .i1⟩
  | .hbm, ⟨28, _⟩ => ⟨S_, .f32⟩
  | .hbm, ⟨29, _⟩ => ⟨S32x2048x512, .i1⟩
  | .hbm, ⟨30, _⟩ => ⟨S32x2048x512, .f32⟩
  | .hbm, ⟨31, _⟩ => ⟨S32x2048x512, .f32⟩
  | .hbm, ⟨32, _⟩ => ⟨S32x2048x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_c : Ref sig .tc := ⟨.hbm, 4, rfl⟩
abbrev main_call0_call0_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_c_1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_call2_v0 : Ref sig .tc := ⟨.hbm, 29, rfl⟩
abbrev main_call2_v1 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]

class Facts₀ : Prop where
  natLt_1_32 : 1 < 32
  bcast_S_S_ : S_.BroadcastsInDim S_ (![] : Fin 0 → Fin S_.rank)
  reduceWindows_S32x2048_S32x2048_w1s1p0_0_w2048s1p2047_0 : S32x2048.ReduceWindows (![1, 2048] : Fin 2 → Nat) ![1, 1] ![0, 2047] ![0, 0] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x512_0_1_2 : S32x2048x1.BroadcastsInDim S32x2048x512 (![0, 1, 2] : Fin 3 → Fin S32x2048x512.rank)
  bcast_S_S32x2048x512 : S_.BroadcastsInDim S32x2048x512 (![] : Fin 0 → Fin S32x2048x512.rank)
  gather_S2048x512_S32x2048x1_S32x2048x512_2_0_n_n_0_2_1512_wf : GatherDims.WF S2048x512 S32x2048x1 S32x2048x512 [2] [0] [] [0] [] 2 ![1, 512]

variable [Facts₀]

def gather_S2048x512_S32x2048x1_S32x2048x512_2_0_n_n_0_2_1512 : GatherDims S2048x512 S32x2048x1 S32x2048x512 where
  offsetDims := [2]
  collapsedSliceDims := [0]
  operandBatchingDims := []
  startIndicesBatchingDims := []
  startIndexMap := [0]
  indexVectorDim := 2
  sliceSizes := ![1, 512]
  wf := gather_S2048x512_S32x2048x1_S32x2048x512_2_0_n_n_0_2_1512_wf

class Facts : Prop extends Facts₀ where

variable [Facts]
-- ==== Proof.Spec.lean ====
/-
  The positional-encoding sum as ONE function of the argument arrays, and the word and extended-real facts that
  make two spellings of it agree.

  Every position (b, r) of a batch of sequences has a rank word; the result adds to the position's vector, where
  the position's mask bit is set, the table row that rank selects:
      out[b, r, q] = seqs[b, r, q] + mask[b, r] · pe[row(rank[b, r]), q].
  One program selects the row by a gather (the start index read signed and clamped into the table) and keeps it
  with a select on the mask bit; the other multiplies a one-hot row — the comparison of the column number with the
  rank word, converted to a float — into the table and scales by the mask bit converted to a float. The two agree
  because a sum of products with a one-hot row has one non-zero term (0 · x = 0 and 1 · x = x hold for every extended
  real, so nothing needs to be finite), and because a bit times x is x or 0 as the bit says.
-/
import Idealize.ShloMosaic.Lib.ValueIdx
import Idealize.ShloMosaic.Lib.KernelVsHost

noncomputable section

namespace Cert.PosEnc

open Idealize.ShloMosaic Idealize.ShloMosaic.ValueIdx

/-- The batch of sequences, [32, 2048, 512]. -/
abbrev SB : Shape := ⟨3, ![32, 2048, 512]⟩
/-- The positions, [32, 2048]. -/
abbrev SM : Shape := ⟨2, ![32, 2048]⟩
/-- The table, [2048, 512]. -/
abbrev SP : Shape := ⟨2, ![2048, 512]⟩

/-- The table row a rank word selects: the word read as a signed integer, clamped into the table's 2048 rows. -/
def rowOf (r : BitVec 32) : Fin 2048 := ⟨min r.toInt.toNat 2047, by omega⟩

/-- One entry of the result: the position's own entry plus the mask bit times the selected row's entry. -/
def val (seqs : SB.Idx → EReal) (mask : IVec SM 1) (pe : SP.Idx → EReal) (rank : IVec SM 32)
    (b : Fin 32) (r : Fin 2048) (q : Fin 512) : EReal :=
  seqs (ix3 b r q) + (((mask (ix2 b r)).toNat : ℝ) : EReal) * pe (ix2 (rowOf (rank (ix2 b r))) q)

/-- The result array, index by index. -/
def G (seqs : SB.Idx → EReal) (mask : IVec SM 1) (pe : SP.Idx → EReal) (rank : IVec SM 32) : SB.Idx → EReal :=
  fun i => val seqs mask pe rank (i 0) (i 1) (i 2)

theorem G_ix3 (seqs : SB.Idx → EReal) (mask : IVec SM 1) (pe : SP.Idx → EReal) (rank : IVec SM 32)
    (b : Fin 32) (r : Fin 2048) (q : Fin 512) : G seqs mask pe rank (ix3 b r q) = val seqs mask pe rank b r q := rfl

/-! ## Words -/

/-- A word clipped below at 0 and above at 2047 (signed) lies in that range. -/
theorem clip_range (x : BitVec 32) :
    0 ≤ (IntOp.minsi 2047#32 (IntOp.maxsi 0#32 x)).toInt ∧ (IntOp.minsi 2047#32 (IntOp.maxsi 0#32 x)).toInt ≤ 2047 := by
  unfold IntOp.minsi IntOp.maxsi
  simp only [BitVec.slt]
  have h0 : (0#32 : BitVec 32).toInt = 0 := by decide
  have h1 : (2047#32 : BitVec 32).toInt = 2047 := by decide
  split <;> split <;> simp_all <;> omega

/-- A word in the table's range, read signed, is its own row number. -/
theorem rowOf_val {r : BitVec 32} (h0 : 0 ≤ r.toInt) (h1 : r.toInt ≤ 2047) : ((rowOf r).val : ℤ) = r.toInt := by
  show ((min r.toInt.toNat 2047 : ℕ) : ℤ) = r.toInt
  omega

/-- A non-negative word read signed is the word read unsigned. -/
theorem toInt_eq_toNat {r : BitVec 32} (h0 : 0 ≤ r.toInt) : r.toInt = (r.toNat : ℤ) := by
  have hlt : r.toNat < 2 ^ 32 := r.isLt
  have hc := BitVec.toInt_eq_toNat_cond r
  split at hc <;> omega

/-- A column number is the rank word exactly at the rank's row. -/
theorem ofNat_eq_iff {r : BitVec 32} (h0 : 0 ≤ r.toInt) (h1 : r.toInt ≤ 2047) (k : Fin 2048) :
    BitVec.ofNat 32 k.val = r ↔ k = rowOf r := by
  have hk : k.val < 2048 := k.isLt
  have hr := rowOf_val h0 h1
  have hn := toInt_eq_toNat h0
  constructor
  · intro h
    apply Fin.ext
    have ht := congrArg BitVec.toNat h
    rw [BitVec.toNat_ofNat] at ht
    omega
  · intro h
    subst h
    apply BitVec.eq_of_toNat_eq
    rw [BitVec.toNat_ofNat]
    omega

/-- A non-negative word is not wrapped by the negative-index rule. -/
theorem wrap_nonneg {r : BitVec 32} (h0 : 0 ≤ r.toInt) :
    Scalar.select (IntOp.cmpi .slt r 0#32) (IntOp.addi r 2048#32) r = r := by
  have : IntOp.cmpi .slt r 0#32 = 0#1 := by
    unfold IntOp.cmpi
    simp only [BitVec.slt]
    have hz : (0#32 : BitVec 32).toInt = 0 := by decide
    rw [hz, decide_eq_false (by omega)]
    rfl
  rw [this, select_zero]

/-! ## The rank of a position -/

/-- The scalar shape. -/
abbrev S0 : Shape := ⟨0, ![]⟩

theorem rank_hw : SM.ReduceWindows (![1, 2048] : Fin 2 → Nat) ![1, 1] ![0, 2047] ![0, 0] SM := by decide
theorem rank_h0 : 0 < S0.numel := by decide
theorem rank_hb0 : S0.BroadcastsInDim S0 (![] : Fin 0 → Fin S0.rank) := by decide
theorem rank_hb : S0.BroadcastsInDim SM (![] : Fin 0 → Fin SM.rank) := by decide

/-- A word array clipped below at 0 and above at 2047, entry by entry. -/
def clipRows (x : IVec SM 32) : IVec SM 32 :=
  minsi (broadcastInDim SM ![] rank_hb (constantI S0 32 2047#32))
    (maxsi (broadcastInDim SM ![] rank_hb (constantI S0 32 0#32)) x)

/-- Every entry of a clipped array is a row of the table. -/
theorem clipRows_range (x : IVec SM 32) (j : SM.Idx) : 0 ≤ (clipRows x j).toInt ∧ (clipRows x j).toInt ≤ 2047 :=
  clip_range (x j)

/-- How many mask bits are set in a position's row up to and including it, less one: a windowed sum of the widened
    bits along the row, the window reaching back to the row's start. Both programs compute it by these same host
    operations; nothing below looks inside it. -/
def countBefore (mask : IVec SM 1) : IVec SM 32 :=
  subi (Host.reduceWindow IntOp.addi ![1, 2048] ![1, 1] ![0, 2047] ![0, 0] (extui 32 mask (by decide))
      (broadcastInDim S0 ![] rank_hb0 (constantI S0 32 0#32)) rank_hw rank_h0)
    (broadcastInDim SM ![] rank_hb (constantI S0 32 1#32))

/-- The rank of a position: that count clipped into the table's rows. -/
def rank (mask : IVec SM 1) : IVec SM 32 := clipRows (countBefore mask)

/-- The rank is a row of the table. -/
theorem rank_range (mask : IVec SM 1) (j : SM.Idx) : 0 ≤ (rank mask j).toInt ∧ (rank mask j).toInt ≤ 2047 :=
  clipRows_range (countBefore mask) j

/-! ## Extended reals -/

/-- A bit converted to a float is 0 or 1. -/
theorem bit_cases (b : BitVec 1) : (b = 0#1 ∧ (((b.toNat : ℝ)) : EReal) = 0) ∨ (b = 1#1 ∧ (((b.toNat : ℝ)) : EReal) = 1) := by
  rcases BitVec.eq_zero_or_eq_one b with h | h
  · left; subst h; exact ⟨rfl, by norm_num⟩
  · right; subst h; exact ⟨rfl, by norm_num⟩

/-- A bit times x is x where the bit is set and 0 where it is not: the select on the bit. -/
theorem bit_mul (b : BitVec 1) (x : EReal) : (((b.toNat : ℝ)) : EReal) * x = Scalar.select b x 0 := by
  rcases bit_cases b with ⟨hb, hv⟩ | ⟨hb, hv⟩
  · rw [hv, hb, select_zero, zero_mul]
  · rw [hv, hb, select_one, one_mul]

/-- THE ONE-HOT SUM: against the row of comparisons of the column numbers with an in-range rank word, a column of
    the table sums to its entry at the rank's row. -/
theorem onehot_sum {r : BitVec 32} (h0 : 0 ≤ r.toInt) (h1 : r.toInt ≤ 2047) (f : Fin 2048 → EReal) :
    ∑ k : Fin 2048, ((((IntOp.cmpi .eq (BitVec.ofNat 32 k.val) r).toNat : ℝ)) : EReal) * f k = f (rowOf r) := by
  rw [Finset.sum_eq_single (rowOf r)]
  · have : IntOp.cmpi .eq (BitVec.ofNat 32 (rowOf r).val) r = 1#1 := by
      unfold IntOp.cmpi
      rw [(ofNat_eq_iff h0 h1 (rowOf r)).mpr rfl, beq_self_eq_true]
      rfl
    rw [this]
    norm_num
  · intro k _ hk
    have : IntOp.cmpi .eq (BitVec.ofNat 32 k.val) r = 0#1 := by
      unfold IntOp.cmpi
      have hne : ¬ BitVec.ofNat 32 k.val = r := fun h => hk ((ofNat_eq_iff h0 h1 k).mp h)
      rw [beq_eq_false_iff_ne.mpr hne]
      rfl
    rw [this]
    norm_num
  · intro h; exact absurd (Finset.mem_univ _) h

end Cert.PosEnc

end
-- ==== Proof.KernelHost.lean ====
/-
  What the kernel's region finds in the three arrays the host wrote before it: the rank of every position as a
  column, the mask bit of every position converted to a float as a column, and the table after a format change
  that is the identity on extended reals. Each is the host operations' pure term of the argument arrays; the
  windowed sum inside the rank is never opened.
-/
import proofs.«149223_j39041252721255_1_alg».proof.Proof.Gen.KernelIdeal.Frame
import proofs.«149223_j39041252721255_1_alg».proof.Proof.Spec
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The mask as launched. -/
abbrev maskArr (c : Dev nD) : IVec S32x2048 1 := m ((c : Thread nD τ).loc main_arg1)
/-- The table as launched. -/
abbrev peArr (c : Dev nD) : FVec Ideal S2048x512 .f32 := m ((c : Thread nD τ).loc main_arg2)
/-- The sequences as launched. -/
abbrev seqArr (c : Dev nD) : FVec Ideal S32x2048x512 .f32 := m ((c : Thread nD τ).loc main_arg0)

attribute [local irreducible] Host.reduceWindow in
/-- The rank column: every position's rank, with a unit axis appended. -/
theorem V_rank (c : Dev nD) :
    (V m c main_v5 : S32x2048x1.Idx → BitVec 32)
      = broadcastInDim S32x2048x1 ![0, 1] bcast_S32x2048_S32x2048x1_0_1 (Cert.PosEnc.rank (maskArr m c)) := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results
  rfl

/-- The mask column: every position's mask bit as a float, with a unit axis appended. -/
theorem V_maskf (c : Dev nD) :
    (V m c main_v7 : S32x2048x1.Idx → EReal)
      = broadcastInDim S32x2048x1 ![0, 1] bcast_S32x2048_S32x2048x1_0_1 (uitofp (F := Ideal) .f32 (maskArr m c)) := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results

/-- The table the region stages is the table as launched: the format change is the identity on extended reals. -/
theorem V_table (c : Dev nD) : (V m c main_v8 : S2048x512.Idx → EReal) = peArr m c := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results
  rfl

end Cert.KernelIdeal.KValue

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.Payload.lean ====
/-
  One block of the kernel's result read at an index, at the ideal values.

  Over a block of 512 positions the body forms, for every position p, the row of comparisons of the column numbers
  0 … 2047 with the position's rank word, converts each comparison bit to a float, and multiplies that one-hot
  matrix into the whole table: entry (p, q) of the product is the sum over the table's rows k of onehot[p, k] · pe[k, q].
  It then scales row p by the position's mask float and adds the position's own vector:
      out[0, p, q] = seqs[0, p, q] + mask[0, p, 0] · Σ_k onehot[p, k] · pe[k, q].
  Where the rank word, read signed, is a row number of the table, exactly one comparison holds, so the sum is the
  table's entry at that row: 0 · x = 0 and 1 · x = x for every extended real, so nothing has to be finite.

  The steps: the product's two operand indices at an output index and a contraction position, coordinate by
  coordinate; the product into the zero accumulator as a sum over the 2048 rows; one entry of the one-hot matrix as
  the comparison bit read as a real; and the chain through the casts that drop and add the block's unit axis and the
  broadcasts of the rank and mask columns over the columns.
-/
import proofs.«149223_j39041252721255_1_alg».proof.Proof.Gen.KernelIdeal.Skeleton
import proofs.«149223_j39041252721255_1_alg».proof.Proof.Spec
import proofs.«149223_j39041252721255_1_alg».proof.Proof.LibLayout
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The product's operand indices

The product's dimension numbers are those of [512, 2048] times [2048, 512]: the left operand's axis 1 is contracted
with the right operand's axis 0. -/

/-- The contraction has one axis, -/
theorem dot_contr_rank : dot_S512x2048_S2048x512_S512x512_1_0_0_1_n_n.contr.rank = 1 := rfl

/-- of extent 2048, the table's rows. -/
theorem dot_contr_size : dot_S512x2048_S2048x512_S512x512_1_0_0_1_n_n.contr.size ⟨0, by rw [dot_contr_rank]; exact Nat.one_pos⟩ = 2048 := rfl

/-- The left operand is read in the output's row, -/
theorem dot_lhsIdx_0 (j : S512x512.Idx) (k : dot_S512x2048_S2048x512_S512x512_1_0_0_1_n_n.contr.Idx) : (dot_S512x2048_S2048x512_S512x512_1_0_0_1_n_n.lhsIdx j k 0).val = (j 0).val := by
  simp [DotDims.lhsIdx, dot_S512x2048_S2048x512_S512x512_1_0_0_1_n_n]; rfl

/-- at the contraction position's column; -/
theorem dot_lhsIdx_1 (j : S512x512.Idx) (k : dot_S512x2048_S2048x512_S512x512_1_0_0_1_n_n.contr.Idx) :
    (dot_S512x2048_S2048x512_S512x512_1_0_0_1_n_n.lhsIdx j k 1).val = (k ⟨0, by rw [dot_contr_rank]; exact Nat.one_pos⟩).val :=
  DotDims.lhsIdx_val_of_single dot_S512x2048_S2048x512_S512x512_1_0_0_1_n_n (cl := 1) rfl j k

/-- the right operand at the contraction position's row, -/
theorem dot_rhsIdx_0 (j : S512x512.Idx) (k : dot_S512x2048_S2048x512_S512x512_1_0_0_1_n_n.contr.Idx) :
    (dot_S512x2048_S2048x512_S512x512_1_0_0_1_n_n.rhsIdx j k 0).val = (k ⟨0, by rw [dot_contr_rank]; exact Nat.one_pos⟩).val :=
  DotDims.rhsIdx_val_of_single dot_S512x2048_S2048x512_S512x512_1_0_0_1_n_n (cr := 0) rfl j k

/-- in the output's column. -/
theorem dot_rhsIdx_1 (j : S512x512.Idx) (k : dot_S512x2048_S2048x512_S512x512_1_0_0_1_n_n.contr.Idx) : (dot_S512x2048_S2048x512_S512x512_1_0_0_1_n_n.rhsIdx j k 1).val = (j 1).val := by
  simp [DotDims.rhsIdx, dot_S512x2048_S2048x512_S512x512_1_0_0_1_n_n]; rfl

/-! ## The product at an index -/

/-- The block product into the zero accumulator, read at (p, q): the sum over the shared coordinate k of
    A[p, k] · B[k, q]. -/
theorem mm_apply (A : FVec Ideal S512x2048 .bf16) (B : FVec Ideal S2048x512 .bf16) (p q : Fin 512) :
    matmul dot_S512x2048_S2048x512_S512x512_1_0_0_1_n_n none A B (constant S512x512 .f32 0x00000000#32) (ix2 p q)
      = ∑ k : Fin 2048, A (ix2 p k) * B (ix2 k q) := by
  show FloatOps.matmul dot_S512x2048_S2048x512_S512x512_1_0_0_1_n_n none A B (constant S512x512 .f32 0x00000000#32) (ix2 p q) = _
  -- the sum over the contraction index set, which is one axis of extent 2048
  rw [Ideal.matmul_constant_zero_apply, ← Equiv.sum_comp (contrEquiv1 dot_S512x2048_S2048x512_S512x512_1_0_0_1_n_n 2048 dot_contr_rank dot_contr_size).symm]
  refine Finset.sum_congr rfl fun c _ => ?_
  have hc := contrEquiv1_symm_val dot_S512x2048_S2048x512_S512x512_1_0_0_1_n_n 2048 dot_contr_rank dot_contr_size c
  -- the left operand is read at (p, c), the right one at (c, q)
  have hl : dot_S512x2048_S2048x512_S512x512_1_0_0_1_n_n.lhsIdx (ix2 p q) ((contrEquiv1 dot_S512x2048_S2048x512_S512x512_1_0_0_1_n_n 2048 dot_contr_rank dot_contr_size).symm c) = ix2 p c :=
    Shape.idx_ext₂ (dot_lhsIdx_0 _ _) ((dot_lhsIdx_1 _ _).trans hc)
  have hr : dot_S512x2048_S2048x512_S512x512_1_0_0_1_n_n.rhsIdx (ix2 p q) ((contrEquiv1 dot_S512x2048_S2048x512_S512x512_1_0_0_1_n_n 2048 dot_contr_rank dot_contr_size).symm c) = ix2 c q :=
    Shape.idx_ext₂ ((dot_rhsIdx_0 _ _).trans hc) (dot_rhsIdx_1 _ _)
  rw [hl, hr]

/-! ## The one-hot matrix at an index -/

/-- Entry (p, k) of the one-hot matrix: the column number k compared with position p's rank word, the comparison
    bit widened to a word, converted signed and kept through the format change, is the bit read as a real. -/
theorem onehot_apply (v0 : Vec Ideal S1x512x1 .i32) (p : Fin 512) (k : Fin 2048)
    (hc : S1x512x1.ShapeCasts S512x1) (hi : S512x2048.Iotas .tc 32 [1]) (hb : S512x1.Broadcasts S512x2048)
    (hw : 1 < 32) (ht : FTy.bits .bf16 < FTy.bits .f32) :
    (truncf .bf16 (sitofp (F := Ideal) .f32 (extui 32 (cmpi .eq (iota .tc S512x2048 32 [1] hi)
        (broadcastTo S512x2048 (shapeCast S512x1 v0 hc) hb)) hw)) ht : FVec Ideal S512x2048 .bf16) (ix2 p k)
      = ((((IntOp.cmpi .eq (BitVec.ofNat 32 k.val) (v0 (ix3 (0 : Fin 1) p (0 : Fin 1)))).toNat : ℝ)) : EReal) := by
  -- the column numbers along axis 1
  have e1 : iota .tc S512x2048 32 [1] hi (ix2 p k) = BitVec.ofNat 32 k.val :=
    iota_single_apply .tc S512x2048 32 1 hi (ix2 p k)
  -- the rank column laid over the columns: row p holds position p's rank word
  have e2 : broadcastTo S512x2048 (shapeCast S512x1 v0 hc) hb (ix2 p k) = v0 (ix3 (0 : Fin 1) p (0 : Fin 1)) :=
    (Cert.LibLayout.broadcastTo_a1_ab_apply _ hb p k).trans (shapeCast_1ab_ab_apply v0 hc p (0 : Fin 1))
  show (((((IntOp.cmpi .eq (iota .tc S512x2048 32 [1] hi (ix2 p k))
      (broadcastTo S512x2048 (shapeCast S512x1 v0 hc) hb (ix2 p k))).setWidth 32).toInt : ℝ)) : EReal) = _
  -- a bit widened to a word and read signed is the bit read unsigned
  rw [e1, e2, toInt_setWidth_bit]
  norm_cast

/-! ## The block's result at an index -/

/-- Entry (0, p, q) of the block the body stores: the position's own entry plus its mask float times the table's
    entry at the row its rank word selects, where that word read signed lies in the table's rows. -/
theorem pay_apply (v0 : Vec Ideal S1x512x1 .i32) (v2 : Vec Ideal S1x512x1 .f32) (v10 : Vec Ideal S2048x512 .bf16)
    (v13 : Vec Ideal S1x512x512 .f32) (p q : Fin 512)
    (h0 : 0 ≤ (v0 (ix3 (0 : Fin 1) p (0 : Fin 1))).toInt) (h1 : (v0 (ix3 (0 : Fin 1) p (0 : Fin 1))).toInt ≤ 2047) :
    k0_pay1 (F := Ideal) v0 v2 v10 v13 (ix3 (0 : Fin 1) p q)
      = v13 (ix3 (0 : Fin 1) p q)
        + v2 (ix3 (0 : Fin 1) p (0 : Fin 1)) * v10 (ix2 (Cert.PosEnc.rowOf (v0 (ix3 (0 : Fin 1) p (0 : Fin 1)))) q) := by
  unfold k0_pay1
  -- the cast that adds the block's unit axis back reads (0, p, q) at (p, q)
  refine (shapeCast_ab_1ab_apply _ _ (0 : Fin 1) p q).trans ?_
  rw [addf_apply, mulf_apply]
  -- the sequence block's entry, the mask column's entry, and the product as a sum over the table's rows
  have ea : shapeCast S512x512 v13 shapeCasts_S1x512x512_S512x512 (ix2 p q) = v13 (ix3 (0 : Fin 1) p q) :=
    shapeCast_1ab_ab_apply v13 _ p q
  have eb : broadcastTo S512x512 (shapeCast S512x1 v2 shapeCasts_S1x512x1_S512x1) broadcasts_S512x1_S512x512 (ix2 p q)
      = v2 (ix3 (0 : Fin 1) p (0 : Fin 1)) :=
    (Cert.LibLayout.broadcastTo_a1_ab_apply _ _ p q).trans (shapeCast_1ab_ab_apply v2 _ p (0 : Fin 1))
  rw [ea, eb, mm_apply, shapeCast_self]
  congr 2
  -- every entry of the one-hot row is the comparison's bit as a real, so one term of the sum is left
  refine (Finset.sum_congr rfl fun k _ => ?_).trans (Cert.PosEnc.onehot_sum h0 h1 fun k => v10 (ix2 k q))
  exact congrArg (· * v10 (ix2 k q)) (onehot_apply v0 p k _ _ _ _ _)

end Cert.KernelIdeal.Payload

end
-- ==== Proof.KernelValue.lean ====
/-
  The kernel's result array after its run, as ONE function of the argument arrays.

  The grid has 32 × 4 points; point (b, s) works on batch entry b and the block of 512 rows s·512 … s·512 + 511. Its
  output block is [1, 512, 512]; the sequences' block sits at the same place, the mask column's and the rank column's
  blocks at the same batch entry and rows (their one column), and the table is one block. So entry (p, q) of what the
  point writes back is
      seqs[b, s·512 + p, q] + mask[b, s·512 + p] · pe[row(rank[b, s·512 + p]), q],
  which is the result function read where the output's block sits. The 128 output blocks tile the array (row r of
  batch entry b lies in the block of the point with block indices (b, r / 512)), so the array ends holding the result
  function everywhere.
-/
import proofs.«149223_j39041252721255_1_alg».proof.Proof.Gen.KernelIdeal.Value
import proofs.«149223_j39041252721255_1_alg».proof.Proof.KernelHost
import proofs.«149223_j39041252721255_1_alg».proof.Proof.LibLayout
import proofs.«149223_j39041252721255_1_alg».proof.Proof.Payload

noncomputable section

namespace Cert.KernelIdeal.KValue

open Cert.KernelIdeal Cert.KernelIdeal.Gen Cert.KernelIdeal.Value Idealize.ShloMosaic Idealize.ShloMosaic.TcCoe
open Idealize.SL.Sem Idealize.ShloMosaic.ValueIdx Cert.KernelIdeal.Payload
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 128 grid points: the three blocked inputs move with the output on
    the batch and row axes and sit at block 0 of their last axis, the table's one block is block (0, 0), and the
    output's block indices range over 32 batch entries and 4 row blocks. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = win0_4.index t (1 : Fin 3)
    ∧ win0_1.index t (2 : Fin 3) = 0
    ∧ win0_2.index t (0 : Fin 3) = win0_4.index t (0 : Fin 3) ∧ win0_2.index t (1 : Fin 3) = win0_4.index t (1 : Fin 3)
    ∧ win0_2.index t (2 : Fin 3) = 0
    ∧ win0_3.index t (0 : Fin 2) = 0 ∧ win0_3.index t (1 : Fin 2) = 0
    ∧ win0_4.index t (0 : Fin 3) ≤ 31 ∧ win0_4.index t (1 : Fin 3) ≤ 3 ∧ win0_4.index t (2 : Fin 3) = 0 :=
  (by decide +kernel : ∀ t : Fin grid0.N, _)

/-- Every (batch entry, row block) is some grid point's output block. -/
theorem idx_onto : ∀ (q0 : Fin 32) (q1 : Fin 4), ∃ t : Fin cfg0.N, win0_4.index t = ![q0.val, q1.val, 0] :=
  (by decide +kernel : ∀ (q0 : Fin 32) (q1 : Fin 4), ∃ t : Fin grid0.N, win0_4.index t = ![q0.val, q1.val, 0])

/-- The batch entry grid point `t` works on. -/
def batchAt (t : Fin cfg0.N) : Fin 32 :=
  ⟨win0_4.index t (0 : Fin 3), by obtain ⟨_, _, _, _, _, _, _, _, _, _, _, e, _, _⟩ := idx_facts t; omega⟩

/-- The row of the sequence that entry `p` of grid point `t`'s block of 512 rows is. -/
def rowAt (t : Fin cfg0.N) (p : Fin 512) : Fin 2048 :=
  ⟨win0_4.index t (1 : Fin 3) * 512 + p.val, by
    obtain ⟨_, _, _, _, _, _, _, _, _, _, _, _, e, _⟩ := idx_facts t; have := p.isLt; omega⟩

/-- Where entry (u, p, q) of the output's block at `t` sits in the array. -/
theorem emb_out (t : Fin cfg0.N) (u : Fin 1) (p q : Fin 512) :
    ((cfg0.win 4).blk t).view.emb (ix3 u p q) = ix3 (batchAt t) (rowAt t p) q := by
  obtain ⟨e0, e1, e2, e3, e4, e5, e6, e7, e8, e9, e10, e11, e12, e13⟩ := idx_facts t
  funext a; apply Fin.ext
  match a with
  | ⟨0, _⟩ => show win0_4.index t (0 : Fin 3) * 1 + 1 * u.val = win0_4.index t (0 : Fin 3); omega
  | ⟨1, _⟩ => show win0_4.index t (1 : Fin 3) * 512 + 1 * p.val = win0_4.index t (1 : Fin 3) * 512 + p.val; omega
  | ⟨2, _⟩ => show win0_4.index t (2 : Fin 3) * 512 + 1 * q.val = q.val; omega

/-- The sequences' block sits where the output's does. -/
theorem emb_seq (t : Fin cfg0.N) (u : Fin 1) (p q : Fin 512) :
    ((cfg0.win 0).blk t).view.emb (ix3 u p q) = ix3 (batchAt t) (rowAt t p) q := by
  obtain ⟨e0, e1, e2, e3, e4, e5, e6, e7, e8, e9, e10, e11, e12, e13⟩ := idx_facts t
  funext a; apply Fin.ext
  match a with
  | ⟨0, _⟩ => show win0_0.index t (0 : Fin 3) * 1 + 1 * u.val = win0_4.index t (0 : Fin 3); omega
  | ⟨1, _⟩ => show win0_0.index t (1 : Fin 3) * 512 + 1 * p.val = win0_4.index t (1 : Fin 3) * 512 + p.val; omega
  | ⟨2, _⟩ => show win0_0.index t (2 : Fin 3) * 512 + 1 * q.val = q.val; omega

/-- The mask column's block: the same batch entry and rows, the one column. -/
theorem emb_maskf (t : Fin cfg0.N) (u : Fin 1) (p : Fin 512) (z : Fin 1) :
    ((cfg0.win 1).blk t).view.emb (ix3 u p z) = ix3 (batchAt t) (rowAt t p) (0 : Fin 1) := by
  obtain ⟨e0, e1, e2, e3, e4, e5, e6, e7, e8, e9, e10, e11, e12, e13⟩ := idx_facts t
  funext a; apply Fin.ext
  match a with
  | ⟨0, _⟩ => show win0_1.index t (0 : Fin 3) * 1 + 1 * u.val = win0_4.index t (0 : Fin 3); omega
  | ⟨1, _⟩ => show win0_1.index t (1 : Fin 3) * 512 + 1 * p.val = win0_4.index t (1 : Fin 3) * 512 + p.val; omega
  | ⟨2, _⟩ => show win0_1.index t (2 : Fin 3) * 1 + 1 * z.val = 0; omega

/-- The rank column's block: likewise. -/
theorem emb_rank (t : Fin cfg0.N) (u : Fin 1) (p : Fin 512) (z : Fin 1) :
    ((cfg0.win 2).blk t).view.emb (ix3 u p z) = ix3 (batchAt t) (rowAt t p) (0 : Fin 1) := by
  obtain ⟨e0, e1, e2, e3, e4, e5, e6, e7, e8, e9, e10, e11, e12, e13⟩ := idx_facts t
  funext a; apply Fin.ext
  match a with
  | ⟨0, _⟩ => show win0_2.index t (0 : Fin 3) * 1 + 1 * u.val = win0_4.index t (0 : Fin 3); omega
  | ⟨1, _⟩ => show win0_2.index t (1 : Fin 3) * 512 + 1 * p.val = win0_4.index t (1 : Fin 3) * 512 + p.val; omega
  | ⟨2, _⟩ => show win0_2.index t (2 : Fin 3) * 1 + 1 * z.val = 0; omega

/-- The table's one block is the table. -/
theorem emb_table (t : Fin cfg0.N) (k : Fin 2048) (q : Fin 512) :
    ((cfg0.win 3).blk t).view.emb (ix2 k q) = ix2 k q := by
  obtain ⟨e0, e1, e2, e3, e4, e5, e6, e7, e8, e9, e10, e11, e12, e13⟩ := idx_facts t
  funext a; apply Fin.ext
  match a with
  | ⟨0, _⟩ => show win0_3.index t (0 : Fin 2) * 2048 + 1 * k.val = k.val; omega
  | ⟨1, _⟩ => show win0_3.index t (1 : Fin 2) * 512 + 1 * q.val = q.val; omega

/-! ## The input blocks read at an entry -/

/-- The sequences' block at `t` holds the sequences' entries of batch entry `batchAt t`, rows `rowAt t ·`. -/
theorem seq_blk (c : Dev nD) (t : Fin cfg0.N) (u : Fin 1) (p q : Fin 512) :
    iblk m c 0 t (ix3 u p q) = seqArr m c (ix3 (batchAt t) (rowAt t p) q) := by
  show V m c main_arg0 (((cfg0.win 0).blk t).view.emb (ix3 u p q)) = _
  rw [emb_seq, V_main_arg0]

/-- The mask column's block holds the positions' mask bits as floats. -/
theorem maskf_blk (c : Dev nD) (t : Fin cfg0.N) (u : Fin 1) (p : Fin 512) (z : Fin 1) :
    iblk m c 1 t (ix3 u p z) = (((maskArr m c (ix2 (batchAt t) (rowAt t p))).toNat : ℝ) : EReal) := by
  show V m c main_v7 (((cfg0.win 1).blk t).view.emb (ix3 u p z)) = _
  rw [emb_maskf, V_maskf]
  exact broadcastInDim_apply _ _ _ (ix3 (batchAt t) (rowAt t p) (0 : Fin 1)) (ix2 (batchAt t) (rowAt t p))
    (fun a => match a with | ⟨0, _⟩ => rfl | ⟨1, _⟩ => rfl)

/-- The rank column's block holds the positions' ranks. -/
theorem rank_blk (c : Dev nD) (t : Fin cfg0.N) (u : Fin 1) (p : Fin 512) (z : Fin 1) :
    iblk m c 2 t (ix3 u p z) = Cert.PosEnc.rank (maskArr m c) (ix2 (batchAt t) (rowAt t p)) := by
  show V m c main_v5 (((cfg0.win 2).blk t).view.emb (ix3 u p z)) = _
  rw [emb_rank, V_rank]
  exact broadcastInDim_apply _ _ _ (ix3 (batchAt t) (rowAt t p) (0 : Fin 1)) (ix2 (batchAt t) (rowAt t p))
    (fun a => match a with | ⟨0, _⟩ => rfl | ⟨1, _⟩ => rfl)

/-- The table's block is the table. -/
theorem table_blk (c : Dev nD) (t : Fin cfg0.N) (k : Fin 2048) (q : Fin 512) :
    iblk m c 3 t (ix2 k q) = peArr m c (ix2 k q) := by
  show V m c main_v8 (((cfg0.win 3).blk t).view.emb (ix2 k q)) = _
  rw [emb_table, V_table]

/-! ## What a grid point writes back, and the array after the run -/

/-- The result array as one function of the argument arrays. -/
abbrev result (c : Dev nD) : S32x2048x512.Idx → EReal :=
  Cert.PosEnc.G (seqArr m c) (maskArr m c) (peArr m c) (Cert.PosEnc.rank (maskArr m c))

/-- WHAT POINT `t` WRITES BACK is block `t` of the result: entry (p, q) of the body's one store is the sequences'
    entry plus the mask float times the table's entry at the rank's row, each read where the output's block sits. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz3]
  simp only [View.ld_unit_zero (S := S1x512x1) hz3, View.ld_unit_zero (S := S2048x512) hz2,
    View.ld_unit_zero (S := S1x512x512) hz3]
  funext y
  obtain ⟨u, p, q, rfl⟩ : ∃ (u : Fin 1) (p q : Fin 512), y = ix3 u p q := ⟨y 0, y 1, y 2, eq_ix3 y⟩
  obtain rfl : u = 0 := Subsingleton.elim _ _
  show k0_pay1 (F := Ideal) (iblk m c 2 t) (iblk m c 1 t) (iblk m c 3 t) (iblk m c 0 t) (ix3 (0 : Fin 1) p q)
    = result m c (((cfg0.win 4).blk t).view.emb (ix3 (0 : Fin 1) p q))
  rw [emb_out]
  show _ = Cert.PosEnc.val (seqArr m c) (maskArr m c) (peArr m c) (Cert.PosEnc.rank (maskArr m c))
    (batchAt t) (rowAt t p) q
  have hr := Cert.PosEnc.rank_range (maskArr m c) (ix2 (batchAt t) (rowAt t p))
  refine (pay_apply (iblk m c 2 t) (iblk m c 1 t) (iblk m c 3 t) (iblk m c 0 t) p q ?_ ?_).trans ?_
  · rw [rank_blk]; exact hr.1
  · rw [rank_blk]; exact hr.2
  · rw [seq_blk, maskf_blk, rank_blk, table_blk]
    rfl

/-- An index of the array is in point `t`'s block iff each coordinate is in the block's range on its axis. -/
theorem mem_blk (t : Fin cfg0.N) (i : S32x2048x512.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v9).slice (win0_4.rect t)).set ↔ _
  rw [View.set_slice_whole, Rect.mem_set_unit]
  exact Iff.rfl

/-- The output's blocks tile the array: row `r` of batch entry `b` is in the block of the point whose block
    indices are (b, r / 512). -/
theorem cover (i : S32x2048x512.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 512 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1; omega
  | ⟨1, _⟩ =>
    show win0_4.index t (1 : Fin 3) * 512 ≤ (i 1).val ∧ (i 1).val < win0_4.index t (1 : Fin 3) * 512 + 512; omega
  | ⟨2, _⟩ =>
    show win0_4.index t (2 : Fin 3) * 512 ≤ (i 2).val ∧ (i 2).val < win0_4.index t (2 : Fin 3) * 512 + 512; omega

/-- THE ARRAY after the run is the result function of the argument arrays. -/
theorem final (c : Dev nD) : (dats m 0 c).arrAt 4 cfg0.N = result m c :=
  (dats m 0 c).arrAt_eq_of_cover 4 (result m c) (fun t _ => flushed_eq m c t) cover

/-- The kernel's run, read: the result buffer ends at the result function of the arguments, the arguments unchanged. -/
theorem run : θ_run (defs (F := Ideal)) (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.RefRun.lean ====
/-
  The reference program's run, as a straight line.

  The reference computes, for a batch of sequences, a mask and a table,
      out = seqs + select(mask, table[idx], 0),   idx = wrap(rank),   rank = clip(cumsum(mask) − 1, 0, 2047),
  through four outlined functions (the running sum, the clip, the select with a broadcast zero) called from its main
  function. A call means its callee's body on the operands, so the main function is one straight line of thirty
  operations once the bodies are substituted at their calls: listed below in order, each over the buffers the call's
  record names. Every buffer then ends at the fold of the operations over what the launch put there; the result buffer
  holds the composed term `refOut` of the three arguments, and the arguments are not written.
-/
import proofs.«149223_j39041252721255_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The composed terms -/

/-- The running count of set mask bits along each row, less one: the widened bits summed over the window reaching
    back to the row's start, minus the broadcast one. -/
def countTerm (mask : IVec S32x2048 1) : IVec S32x2048 32 :=
  subi (Host.reduceWindow IntOp.addi ![1, 2048] ![1, 1] ![0, 2047] ![0, 0] (extui 32 mask natLt_1_32)
      (broadcastInDim S_ ![] bcast_S_S_ (constantI S_ 32 0#32))
      reduceWindows_S32x2048_S32x2048_w1s1p0_0_w2048s1p2047_0 h_S_)
    (broadcastInDim S32x2048 ![] bcast_S_S32x2048 (constantI S_ 32 1#32))

/-- The rank: that count clipped below at 0 and above at 2047. -/
def rankTerm (mask : IVec S32x2048 1) : IVec S32x2048 32 :=
  minsi (broadcastInDim S32x2048 ![] bcast_S_S32x2048 (constantI S_ 32 2047#32))
    (maxsi (broadcastInDim S32x2048 ![] bcast_S_S32x2048 (constantI S_ 32 0#32)) (countTerm mask))

/-- The row index: a negative rank wrapped by the table's length, any other kept. -/
def idxTerm (rk : IVec S32x2048 32) : IVec S32x2048 32 :=
  select (cmpi .slt rk (broadcastInDim S32x2048 ![] bcast_S_S32x2048 (constantI S_ 32 0#32)))
    (addi rk (broadcastInDim S32x2048 ![] bcast_S_S32x2048 (constantI S_ 32 2048#32))) rk

/-- What the reference computes from the three arguments' contents: the sequences plus, where the mask bit is set, the
    table row gathered at the row index, and the broadcast zero where it is not. -/
def refOut (seqs : FVec F S32x2048x512 .f32) (mask : IVec S32x2048 1) (pe : FVec F S2048x512 .f32) :
    FVec F S32x2048x512 .f32 :=
  addf seqs
    (select
      (broadcastInDim S32x2048x512 ![0, 1, 2] bcast_S32x2048x1_S32x2048x512_0_1_2
        (broadcastInDim S32x2048x1 ![0, 1] bcast_S32x2048_S32x2048x1_0_1 mask))
      (Host.gather gather_S2048x512_S32x2048x1_S32x2048x512_2_0_n_n_0_2_1512 pe
        (broadcastInDim S32x2048x1 ![0, 1] bcast_S32x2048_S32x2048x1_0_1 (idxTerm (rankTerm mask))))
      (broadcastInDim S32x2048x512 ![] bcast_S_S32x2048x512 (constant S_ .f32 0x00000000#32)))

/-! ## The straight line -/

/-- The main function's thirty operations in order, the calls substituted: the widening; the running sum's three (the
    zero, its broadcast to itself, the windowed sum); the one, its broadcast, the subtraction, the two bounds; the
    clip's six (each bound converted to its own type and broadcast, the maximum, the minimum); the wrap's seven; the
    index column, the gather, the mask column, the float zero; the select's three (the mask and the zero broadcast, the
    select); the sum. -/
abbrev ops : List (HloOp τ sig (Elt F)) :=
  [ unary main_arg1 main_v0 ((extui 32 · natLt_1_32) : (⟨S32x2048, .i1⟩ : BufTy).Contents (Elt F) → (⟨S32x2048, .i32⟩ : BufTy).Contents (Elt F)),
    TRef.nullary main_call0.call0.c (constantI S_ 32 0#32),
    TRef.unary main_call0.call0.c main_call0.call0.v0 (broadcastInDim S_ ![] bcast_S_S_),
    TRef.binary (.of main_v0 : TRef sig ⟨S32x2048, .i32⟩) main_call0.call0.v0 main_call0.call0.v1 (fun x v => Host.reduceWindow IntOp.addi ![1, 2048] ![1, 1] ![0, 2047] ![0, 0] x v reduceWindows_S32x2048_S32x2048_w1s1p0_0_w2048s1p2047_0 h_S_),
    nullary main_c (constantI S_ 32 1#32),
    unary main_c main_v2 (broadcastInDim S32x2048 ![] bcast_S_S32x2048 : (⟨S_, .i32⟩ : BufTy).Contents (Elt F) → (⟨S32x2048, .i32⟩ : BufTy).Contents (Elt F)),
    binary main_v1 main_v2 main_v3 (subi : (⟨S32x2048, .i32⟩ : BufTy).Contents (Elt F) → (⟨S32x2048, .i32⟩ : BufTy).Contents (Elt F) → (⟨S32x2048, .i32⟩ : BufTy).Contents (Elt F)),
    nullary main_c_0 (constantI S_ 32 0#32),
    nullary main_c_1 (constantI S_ 32 2047#32),
    TRef.unary (.of main_c_0 : TRef sig ⟨S_, .i32⟩) main_call1.v0 id,
    TRef.unary main_call1.v0 main_call1.v1 (broadcastInDim S32x2048 ![] bcast_S_S32x2048),
    TRef.binary main_call1.v1 (.of main_v3 : TRef sig ⟨S32x2048, .i32⟩) main_call1.v2 maxsi,
    TRef.unary (.of main_c_1 : TRef sig ⟨S_, .i32⟩) main_call1.v3 id,
    TRef.unary main_call1.v3 main_call1.v4 (broadcastInDim S32x2048 ![] bcast_S_S32x2048),
    TRef.binary main_call1.v4 main_call1.v2 main_call1.v5 minsi,
    nullary main_c_2 (constantI S_ 32 0#32),
    unary main_c_2 main_v5 (broadcastInDim S32x2048 ![] bcast_S_S32x2048 : (⟨S_, .i32⟩ : BufTy).Contents (Elt F) → (⟨S32x2048, .i32⟩ : BufTy).Contents (Elt F)),
    binary main_v4 main_v5 main_v6 (cmpi .slt : (⟨S32x2048, .i32⟩ : BufTy).Contents (Elt F) → (⟨S32x2048, .i32⟩ : BufTy).Contents (Elt F) → (⟨S32x2048, .i1⟩ : BufTy).Contents (Elt F)),
    nullary main_c_3 (constantI S_ 32 2048#32),
    unary main_c_3 main_v7 (broadcastInDim S32x2048 ![] bcast_S_S32x2048 : (⟨S_, .i32⟩ : BufTy).Contents (Elt F) → (⟨S32x2048, .i32⟩ : BufTy).Contents (Elt F)),
    binary main_v4 main_v7 main_v8 (addi : (⟨S32x2048, .i32⟩ : BufTy).Contents (Elt F) → (⟨S32x2048, .i32⟩ : BufTy).Contents (Elt F) → (⟨S32x2048, .i32⟩ : BufTy).Contents (Elt F)),
    ternary main_v6 main_v8 main_v4 main_v9 (select : (⟨S32x2048, .i1⟩ : BufTy).Contents (Elt F) → (⟨S32x2048, .i32⟩ : BufTy).Contents (Elt F) → (⟨S32x2048, .i32⟩ : BufTy).Contents (Elt F) → (⟨S32x2048, .i32⟩ : BufTy).Contents (Elt F)),
    unary main_v9 main_v10 (broadcastInDim S32x2048x1 ![0, 1] bcast_S32x2048_S32x2048x1_0_1 : (⟨S32x2048, .i32⟩ : BufTy).Contents (Elt F) → (⟨S32x2048x1, .i32⟩ : BufTy).Contents (Elt F)),
    binary main_arg2 main_v10 main_v11 ((fun x i => Host.gather gather_S2048x512_S32x2048x1_S32x2048x512_2_0_n_n_0_2_1512 x i) : (⟨S2048x512, .f32⟩ : BufTy).Contents (Elt F) → (⟨S32x2048x1, .i32⟩ : BufTy).Contents (Elt F) → (⟨S32x2048x512, .f32⟩ : BufTy).Contents (Elt F)),
    unary main_arg1 main_v12 (broadcastInDim S32x2048x1 ![0, 1] bcast_S32x2048_S32x2048x1_0_1 : (⟨S32x2048, .i1⟩ : BufTy).Contents (Elt F) → (⟨S32x2048x1, .i1⟩ : BufTy).Contents (Elt F)),
    nullary main_cst (constant S_ .f32 0x00000000#32),
    TRef.unary (.of main_v12 : TRef sig ⟨S32x2048x1, .i1⟩) main_call2.v0 (broadcastInDim S32x2048x512 ![0, 1, 2] bcast_S32x2048x1_S32x2048x512_0_1_2),
    TRef.unary (.of main_cst : TRef sig ⟨S_, .f32⟩) main_call2.v1 (broadcastInDim S32x2048x512 ![] bcast_S_S32x2048x512),
    TRef.ternary main_call2.v0 (.of main_v11 : TRef sig ⟨S32x2048x512, .f32⟩) main_call2.v1 main_call2.v2 select,
    binary main_arg0 main_v13 main_v14 (addf : (⟨S32x2048x512, .f32⟩ : BufTy).Contents (Elt F) → (⟨S32x2048x512, .f32⟩ : BufTy).Contents (Elt F) → (⟨S32x2048x512, .f32⟩ : BufTy).Contents (Elt F)) ]

set_option maxRecDepth 1024 in
/-- The main function is that straight line: the four bodies substituted at their calls and the records read at their
    fields, both sides are one chain of steps once sequencing is reassociated. -/
theorem main_eq (c : Dev nD) : main (F := F) c = seq ops := by
  simp only [main, fn_cumsum.body, fn_cumsum_0.body, fn_clip.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., nullary_bufs_sub .., unary_bufs_sub .., unary_bufs_sub .., ternary_bufs_sub .., binary_bufs_sub ..⟩

/-- On every device, for any float values, from any memory with zero counters: every weakly fair execution of the main
    function terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the fold leaves at the result and at the arguments -/

attribute [local irreducible] Host.reduceWindow Host.gather in
set_option maxRecDepth 8192 in
/-- The fold at the result buffer is the composed term of the three arguments' contents: each operation's result decides
    whether the buffer read is the one it writes, and the typed references' casts are the identity at literal
    references. The windowed sum and the gather are kept folded meanwhile (the equation never looks inside them). -/
theorem out_eq (V : Valuation τ sig (Elt F)) :
    after ops V (main_v14 : DevRef τ sig)
      = refOut (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

/-- The run, read at the result and the arguments: the result at the composed term of the arguments' launch contents,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
          = refOut (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v14).trans (out_eq _), (h c main_arg0).trans (arg0_eq _),
      (h c main_arg1).trans (arg1_eq _), (h c main_arg2).trans (arg2_eq _)⟩)
    (run_main m ρ)

end Cert.ReferenceIdeal.RefRun

end
-- ==== Proof.RefValue.lean ====
/-
  The reference's composed term, at the extended reals, read at an index.

  The reference's result is
      seqs + select(mask broadcast along the vector axis, gather(table, idx), 0),   idx = wrap(rank).
  The rank is never negative (it is clipped below at 0), so the wrap keeps it; the gather reads, at (b, r, q), the
  table's entry (row, q) at the row the start index selects — the word read signed and clamped into the table's 2048
  rows; and a select on the mask bit between x and 0 is the bit times x. So every entry is
      seqs[b, r, q] + mask[b, r] · table[row(rank[b, r]), q].
-/
import proofs.«149223_j39041252721255_1_alg».proof.Proof.RefRun
import proofs.«149223_j39041252721255_1_alg».proof.Proof.Spec
import proofs.«149223_j39041252721255_1_alg».proof.Proof.LibLayout
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## The gather of table rows, read at an index -/

section Gather
variable {α : Type}

/-- THE GATHER READ AT (b, r, q): the table's entry in column q of the row the start index idx[b, r, 0] selects, the
    word read signed and clamped into the table's rows. Axis 0 of the table is collapsed and is the one the start index
    names: its coordinate is the clamped start, with no batch and no offset part. Axis 1 is not named by the start index
    map, so its start is 0, and it is the one kept axis, read by the result's offset axis 2: its coordinate is q. -/
theorem gather_rows_apply {w : Nat} (x : S2048x512.Idx → α) (idx : IVec S32x2048x1 w)
    (b : Fin 32) (r : Fin 2048) (q : Fin 512) :
    Host.gather gather_S2048x512_S32x2048x1_S32x2048x512_2_0_n_n_0_2_1512 x idx (ix3 b r q)
      = x (ix2 (⟨min (idx (ix3 b r (0 : Fin 1))).toInt.toNat 2047, by omega⟩ : Fin 2048) q) := by
  unfold Host.gather
  congr 1
  funext a
  refine Fin.ext ?_
  match a with
  | ⟨0, _⟩ =>
    show gather_S2048x512_S32x2048x1_S32x2048x512_2_0_n_n_0_2_1512.start (ix3 b r q) idx 0
        + gather_S2048x512_S32x2048x1_S32x2048x512_2_0_n_n_0_2_1512.batchCoord (ix3 b r q) 0
        + gather_S2048x512_S32x2048x1_S32x2048x512_2_0_n_n_0_2_1512.offCoord (ix3 b r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2048x512_S32x2048x1_S32x2048x512_2_0_n_n_0_2_1512.startIndexMap
      from List.mem_singleton.mpr rfl)]
    have hsi : gather_S2048x512_S32x2048x1_S32x2048x512_2_0_n_n_0_2_1512.siIdx (ix3 b r q)
        ⟨List.idxOf (0 : Fin 2) gather_S2048x512_S32x2048x1_S32x2048x512_2_0_n_n_0_2_1512.startIndexMap,
          List.idxOf_lt_length_iff.2 (List.mem_singleton.mpr rfl)⟩ = ix3 b r (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S2048x512_S32x2048x1_S32x2048x512_2_0_n_n_0_2_1512.start (ix3 b r q) idx 1
        + gather_S2048x512_S32x2048x1_S32x2048x512_2_0_n_n_0_2_1512.batchCoord (ix3 b r q) 1
        + gather_S2048x512_S32x2048x1_S32x2048x512_2_0_n_n_0_2_1512.offCoord (ix3 b r q) 1 = q.val
    rw [GatherDims.batchCoord_eq_zero _ _ _ List.not_mem_nil]
    have hs : gather_S2048x512_S32x2048x1_S32x2048x512_2_0_n_n_0_2_1512.start (ix3 b r q) idx 1 = 0 := by
      unfold GatherDims.start
      rw [dif_neg (show (1 : Fin 2) ∉ gather_S2048x512_S32x2048x1_S32x2048x512_2_0_n_n_0_2_1512.startIndexMap
        from by decide)]
    rw [hs]
    simp only [Nat.add_zero, Nat.zero_add]
    unfold GatherDims.offCoord
    rw [dif_pos (show (1 : Fin 2) ∈ gather_S2048x512_S32x2048x1_S32x2048x512_2_0_n_n_0_2_1512.sKept from by decide)]
    rfl

end Gather

/-! ## The rank and the row index -/

attribute [local irreducible] Host.reduceWindow in
/-- The reference's rank term is the shared rank of the mask: the same operations over shapes that are the same
    literals. The windowed sum is kept folded: the equation never looks inside it. -/
theorem rankTerm_eq (mask : IVec S32x2048 1) : RefRun.rankTerm mask = Cert.PosEnc.rank mask := rfl

/-- The wrap keeps a word that is not negative: the comparison with the broadcast zero is false there. -/
theorem idxTerm_apply (rk : IVec S32x2048 32) (j : S32x2048.Idx) (h0 : 0 ≤ (rk j).toInt) :
    RefRun.idxTerm rk j = rk j := by
  show Scalar.select (IntOp.cmpi .slt (rk j) 0#32) (IntOp.addi (rk j) 2048#32) (rk j) = rk j
  exact Cert.PosEnc.wrap_nonneg h0

/-- The row index of the shared rank is the rank: it is clipped below at 0. -/
theorem idxTerm_rank_apply (mask : IVec S32x2048 1) (j : S32x2048.Idx) :
    RefRun.idxTerm (Cert.PosEnc.rank mask) j = Cert.PosEnc.rank mask j :=
  idxTerm_apply (Cert.PosEnc.rank mask) j (Cert.PosEnc.rank_range mask j).1

/-! ## The layout operations of the reference, read at an index -/

section Layout
variable {α : Type}

/-- A [32, 2048] array made a [32, 2048, 1] column reads, at (b, r, u), the array at (b, r). -/
theorem column_apply (x : S32x2048.Idx → α) (b : Fin 32) (r : Fin 2048) (u : Fin 1) :
    broadcastInDim S32x2048x1 ![0, 1] bcast_S32x2048_S32x2048x1_0_1 x (ix3 b r u) = x (ix2 b r) := by
  refine broadcastInDim_apply _ _ x (ix3 b r u) (ix2 b r) fun a => ?_
  match a with
  | ⟨0, _⟩ => rfl
  | ⟨1, _⟩ => rfl

/-- A [32, 2048, 1] column broadcast along the vector axis reads, at (b, r, q), the column at (b, r, 0). -/
theorem spread_apply (x : S32x2048x1.Idx → α) (b : Fin 32) (r : Fin 2048) (q : Fin 512) :
    broadcastInDim S32x2048x512 ![0, 1, 2] bcast_S32x2048x1_S32x2048x512_0_1_2 x (ix3 b r q) = x (ix3 b r (0 : Fin 1)) := by
  refine broadcastInDim_apply _ _ x (ix3 b r q) (ix3 b r (0 : Fin 1)) fun a => ?_
  match a with
  | ⟨0, _⟩ => rfl
  | ⟨1, _⟩ => rfl
  | ⟨2, _⟩ => rfl

end Layout

/-! ## The composed term is the specification's -/

/-- The mask bit at (b, r, q): the mask made a column, the column broadcast along the vector axis. -/
theorem maskSpread_apply (mask : IVec S32x2048 1) (b : Fin 32) (r : Fin 2048) (q : Fin 512) :
    broadcastInDim S32x2048x512 ![0, 1, 2] bcast_S32x2048x1_S32x2048x512_0_1_2
      (broadcastInDim S32x2048x1 ![0, 1] bcast_S32x2048_S32x2048x1_0_1 mask) (ix3 b r q) = mask (ix2 b r) :=
  (spread_apply _ b r q).trans (column_apply mask b r 0)

/-- The start index at (b, r): the row index made a column; the row index of the rank is the rank. -/
theorem startIdx_apply (mask : IVec S32x2048 1) (b : Fin 32) (r : Fin 2048) :
    broadcastInDim S32x2048x1 ![0, 1] bcast_S32x2048_S32x2048x1_0_1 (RefRun.idxTerm (RefRun.rankTerm mask))
      (ix3 b r (0 : Fin 1)) = Cert.PosEnc.rank mask (ix2 b r) :=
  (column_apply _ b r 0).trans
    ((congrArg (fun k => RefRun.idxTerm k (ix2 b r)) (rankTerm_eq mask)).trans (idxTerm_rank_apply mask (ix2 b r)))

/-- The gathered entry at (b, r, q): the table's entry in column q of the row the position's rank selects. -/
theorem gathered_apply {α : Type} (pe : S2048x512.Idx → α) (mask : IVec S32x2048 1) (b : Fin 32) (r : Fin 2048) (q : Fin 512) :
    Host.gather gather_S2048x512_S32x2048x1_S32x2048x512_2_0_n_n_0_2_1512 pe
      (broadcastInDim S32x2048x1 ![0, 1] bcast_S32x2048_S32x2048x1_0_1 (RefRun.idxTerm (RefRun.rankTerm mask))) (ix3 b r q)
      = pe (ix2 (Cert.PosEnc.rowOf (Cert.PosEnc.rank mask (ix2 b r))) q) :=
  (gather_rows_apply pe _ b r q).trans
    (congrArg (fun k : BitVec 32 => pe (ix2 (Cert.PosEnc.rowOf k) q)) (startIdx_apply mask b r))

/-- The broadcast float zero reads 0 everywhere. -/
theorem zeroSpread_apply (j : S32x2048x512.Idx) :
    broadcastInDim S32x2048x512 ![] bcast_S_S32x2048x512 (constant (F := Ideal) S_ .f32 0x00000000#32) j = (0 : EReal) :=
  (Cert.LibLayout.broadcastInDim_scalar_apply _ _ _).trans ((constant_apply _ _).trans Ideal.ofBits_zero_f32)

/-- One entry of the reference's result: the position's own entry plus the mask bit times the entry of the table row
    the position's rank selects. -/
theorem refOut_apply (seqs : FVec Ideal S32x2048x512 .f32) (mask : IVec S32x2048 1) (pe : FVec Ideal S2048x512 .f32)
    (b : Fin 32) (r : Fin 2048) (q : Fin 512) :
    RefRun.refOut (F := Ideal) seqs mask pe (ix3 b r q)
      = Cert.PosEnc.val seqs mask pe (Cert.PosEnc.rank mask) b r q := by
  unfold RefRun.refOut Cert.PosEnc.val
  refine (addf_apply _ _ _).trans (congrArg (seqs (ix3 b r q) + ·) ?_)
  refine (select_apply _ _ _ _).trans ?_
  rw [maskSpread_apply, gathered_apply, zeroSpread_apply, Cert.PosEnc.bit_mul]

/-- The reference's composed term is the specification's result array at the shared rank of the mask. -/
theorem refOut_eq (seqs : FVec Ideal S32x2048x512 .f32) (mask : IVec S32x2048 1) (pe : FVec Ideal S2048x512 .f32) :
    RefRun.refOut (F := Ideal) seqs mask pe = Cert.PosEnc.G seqs mask pe (Cert.PosEnc.rank mask) := by
  funext j
  obtain ⟨b, r, q, rfl⟩ : ∃ b r q, j = ix3 b r q := ⟨j 0, j 1, j 2, eq_ix3 j⟩
  exact (refOut_apply seqs mask pe b r q).trans (Cert.PosEnc.G_ix3 seqs mask pe _ b r q).symm

/-! ## The run -/

/-- On every device, at the extended reals, from any memory with zero counters: every weakly fair execution of the
    reference terminates with the result buffer at the specification's array of the three arguments' launch contents
    and the shared rank of the mask, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
        = Cert.PosEnc.G (m ((c.tc : Thread nD τ).loc main_arg0)) (m ((c.tc : Thread nD τ).loc main_arg1))
            (m ((c.tc : Thread nD τ).loc main_arg2)) (Cert.PosEnc.rank (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨((h c).1).trans (refOut_eq _ _ _), (h c).2.1, (h c).2.2.1, (h c).2.2.2⟩)
    (RefRun.run (F := Ideal) m ρ)

end Cert.ReferenceIdeal.RefValue

end
-- ==== Proof.lean ====
/-
  The positional-encoding kernel against its reference, over the extended reals.

  Both programs compute, for every position (b, r) of 32 sequences of 2048 positions, the position's rank — how many
  mask bits are set in its row up to and including it, less one, clipped into the table's 2048 rows — by the same host
  operations, and add the table's row at that rank to the position's vector where the mask bit is set:
      out[b, r, q] = seqs[b, r, q] + mask[b, r] · pe[rank[b, r], q].
  The reference selects the row by a gather and keeps it with a select on the mask bit. The kernel multiplies a one-hot
  row (the comparison of the column number with the rank, as a float) into the table on the matrix unit, 512 positions
  at a time, and scales by the mask bit as a float. A sum of products with a one-hot row has one non-zero term, and
  0 · x = 0, 1 · x = x hold for every extended real, so the two agree without any input being finite; the rank itself is
  never opened, only its range 0 … 2047, which the final clip gives.

  The kernel's frames are the generated ones; the reference's frame is its run with the value dropped; the idealization
  rewrote no operation. The value claim sets the kernel's array after its run (the generated blockwise leg, the body's
  one store read at an index, the blocks tiling the array) beside the reference's run read at an index: both are the one
  function `Cert.PosEnc.G` of the argument arrays.
-/
import proofs.«149223_j39041252721255_1_alg».proof.Defs
import proofs.«149223_j39041252721255_1_alg».proof.Proof.Gen.Kernel
import proofs.«149223_j39041252721255_1_alg».proof.Proof.Gen.Kernel.Skeleton
import proofs.«149223_j39041252721255_1_alg».proof.Proof.Gen.Kernel.Launch
import proofs.«149223_j39041252721255_1_alg».proof.Proof.Gen.Kernel.Points
import proofs.«149223_j39041252721255_1_alg».proof.Proof.Gen.Kernel.Frame
import proofs.«149223_j39041252721255_1_alg».proof.Proof.Gen.KernelIdeal
import proofs.«149223_j39041252721255_1_alg».proof.Proof.Gen.KernelIdeal.Skeleton
import proofs.«149223_j39041252721255_1_alg».proof.Proof.Gen.KernelIdeal.Launch
import proofs.«149223_j39041252721255_1_alg».proof.Proof.Gen.KernelIdeal.Points
import proofs.«149223_j39041252721255_1_alg».proof.Proof.Gen.KernelIdeal.Frame
import proofs.«149223_j39041252721255_1_alg».proof.Proof.Gen.KernelIdeal.Value
import proofs.«149223_j39041252721255_1_alg».proof.Proof.Gen.ReferenceIdeal
import proofs.«149223_j39041252721255_1_alg».proof.Proof.Gen.Pre_finite_inputs
import proofs.«149223_j39041252721255_1_alg».proof.Proof.KernelValue
import proofs.«149223_j39041252721255_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the value dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- From memories agreeing on the arguments both programs end with the one result function of those arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
